-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x300x512 : Shape := ⟨3, ![32, 300, 512]⟩
abbrev S32x1024x512 : Shape := ⟨3, ![32, 1024, 512]⟩
abbrev S512x512x512 : Shape := ⟨3, ![512, 512, 512]⟩
abbrev S512 : Shape := ⟨1, ![512]⟩
abbrev S_ : Shape := ⟨0, ![]⟩

class Facts : Prop where
  bcast_S_S32x300x512 : S_.BroadcastsInDim S32x300x512 (![] : Fin 0 → Fin S32x300x512.rank)
  reducesTo_S32x300x512_S_d0_1_2 : S32x300x512.ReducesTo [0, 1, 2] S_
  h_S_ : 0 < S_.numel
  bcast_S_S32x1024x512 : S_.BroadcastsInDim S32x1024x512 (![] : Fin 0 → Fin S32x1024x512.rank)
  reducesTo_S32x1024x512_S_d0_1_2 : S32x1024x512.ReducesTo [0, 1, 2] S_
  bcast_S_S512x512x512 : S_.BroadcastsInDim S512x512x512 (![] : Fin 0 → Fin S512x512x512.rank)
  reducesTo_S512x512x512_S_d0_1_2 : S512x512x512.ReducesTo [0, 1, 2] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512 .f32) (main_arg5 : FVec F S512 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  main_v28

def fn {F : FTy → Type} [FloatOps F] (main_arg0 : FVec F S32x300x512 .f32) (main_arg1 : FVec F S32x1024x512 .f32) (main_arg2 : FVec F S512x512x512 .f32) (main_arg3 : FVec F S512 .f32) (main_arg4 : FVec F S512 .f32) (main_arg5 : FVec F S512 .f32) : IVec S_ 1 :=
  let main_v0 : FVec F S32x300x512 .f32 := Host.absf main_arg0
  let main_cst : FVec F S_ .f32 := constant S_ .f32 0x7F800000#32
  let main_v1 : FVec F S32x300x512 .f32 := broadcastInDim S32x300x512 ![] bcast_S_S32x300x512 main_cst
  let main_v2 : IVec S32x300x512 1 := cmpf .olt main_v0 main_v1
  let main_c : IVec S_ 1 := constantI S_ 1 1#1
  let main_v3 : IVec S_ 1 := (fun x v => Host.reduce IntOp.andi x v reducesTo_S32x300x512_S_d0_1_2 h_S_) main_v2 main_c
  let main_v4 : FVec F S32x1024x512 .f32 := Host.absf main_arg1
  let main_cst_0 : FVec F S_ .f32 := constant S_ .f32 0x7F800000#32
  let main_v5 : FVec F S32x1024x512 .f32 := broadcastInDim S32x1024x512 ![] bcast_S_S32x1024x512 main_cst_0
  let main_v6 : IVec S32x1024x512 1 := cmpf .olt main_v4 main_v5
  let main_c_1 : IVec S_ 1 := constantI S_ 1 1#1
  let main_v7 : IVec S_ 1 := (fun x v => Host.reduce IntOp.andi x v reducesTo_S32x1024x512_S_d0_1_2 h_S_) main_v6 main_c_1
  let main_v8 : IVec S_ 1 := andi main_v3 main_v7
  let main_v9 : FVec F S512x512x512 .f32 := Host.absf main_arg2
  let main_cst_2 : FVec F S_ .f32 := constant S_ .f32 0x7F800000#32
  let main_v10 : FVec F S512x512x512 .f32 := broadcastInDim S512x512x512 ![] bcast_S_S512x512x512 main_cst_2
  let main_v11 : IVec S512x512x512 1 := cmpf .olt main_v9 main_v10
  let main_c_3 : IVec S_ 1 := constantI S_ 1 1#1
  let main_v12 : IVec S_ 1 := (fun x v => Host.reduce IntOp.andi x v reducesTo_S512x512x512_S_d0_1_2 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_v13 main_v16
-- ==== Kernel.lean ====
abbrev S32x300x512 : Shape := ⟨3, ![32, 300, 512]⟩
abbrev S32x1024x512 : Shape := ⟨3, ![32, 1024, 512]⟩
abbrev S512x512x512 : Shape := ⟨3, ![512, 512, 512]⟩
abbrev S512 : Shape := ⟨1, ![512]⟩
abbrev S_ : Shape := ⟨0, ![]⟩
abbrev S32x512 : Shape := ⟨2, ![32, 512]⟩
abbrev S262144x512 : Shape := ⟨2, ![262144, 512]⟩
abbrev S32x262144 : Shape := ⟨2, ![32, 262144]⟩
abbrev S4096x512 : Shape := ⟨2, ![4096, 512]⟩
abbrev S32x4096 : Shape := ⟨2, ![32, 4096]⟩
abbrev S32x512x512 : Shape := ⟨3, ![32, 512, 512]⟩
abbrev S1x300x512 : Shape := ⟨3, ![1, 300, 512]⟩
abbrev S1x512x512 : Shape := ⟨3, ![1, 512, 512]⟩
abbrev S300x512 : Shape := ⟨2, ![300, 512]⟩
abbrev S512x512 : Shape := ⟨2, ![512, 512]⟩
abbrev S1x512 : Shape := ⟨2, ![1, 512]⟩
abbrev S300 : Shape := ⟨1, ![300]⟩
abbrev S300x1 : Shape := ⟨2, ![300, 1]⟩

abbrev nBuf : Space → Nat
  | .hbm => 15
  | .vmem => 14
  | .smem => 0
  | _ => 0

abbrev bufTy : (tb : Table) → Fin (tcTables nBuf tb) → BufTy
  | .hbm, ⟨0, _⟩ => ⟨S32x300x512, .f32⟩
  | .hbm, ⟨1, _⟩ => ⟨S32x1024x512, .f32⟩
  | .hbm, ⟨2, _⟩ => ⟨S512x512x512, .f32⟩
  | .hbm, ⟨3, _⟩ => ⟨S512, .f32⟩
  | .hbm, ⟨4, _⟩ => ⟨S512, .f32⟩
  | .hbm, ⟨5, _⟩ => ⟨S512, .f32⟩
  | .hbm, ⟨6, _⟩ => ⟨S_, .f32⟩
  | .hbm, ⟨7, _⟩ => ⟨S32x512, .f32⟩
  | .hbm, ⟨8, _⟩ => ⟨S_, .f32⟩
  | .hbm, ⟨9, _⟩ => ⟨S32x512, .f32⟩
  | .hbm, ⟨10, _⟩ => ⟨S32x512, .f32⟩
  | .hbm, ⟨11, _⟩ => ⟨S262144x512, .f32⟩
  | .hbm, ⟨12, _⟩ => ⟨S32x262144, .bf16⟩
  | .hbm, ⟨13, _⟩ => ⟨S32x512x512, .bf16⟩
  | .hbm, ⟨14, _⟩ => ⟨S32x300x512, .f32⟩
  | .local _ .vmem, ⟨0, _⟩ => ⟨S4096x512, .f32⟩
  | .local _ .vmem, ⟨1, _⟩ => ⟨S4096x512, .f32⟩
  | .local _ .vmem, ⟨2, _⟩ => ⟨S32x512, .f32⟩
  | .local _ .vmem, ⟨3, _⟩ => ⟨S32x4096, .bf16⟩
  | .local _ .vmem, ⟨4, _⟩ => ⟨S32x4096, .bf16⟩
  | .local _ .vmem, ⟨5, _⟩ => ⟨S1x300x512, .f32⟩
  | .local _ .vmem, ⟨6, _⟩ => ⟨S1x300x512, .f32⟩
  | .local _ .vmem, ⟨7, _⟩ => ⟨S1x512x512, .bf16⟩
  | .local _ .vmem, ⟨8, _⟩ => ⟨S1x512x512, .bf16⟩
  | .local _ .vmem, ⟨9, _⟩ => ⟨S512, .f32⟩
  | .local _ .vmem, ⟨10, _⟩ => ⟨S512, .f32⟩
  | .local _ .vmem, ⟨11, _⟩ => ⟨S512, .f32⟩
  | .local _ .vmem, ⟨12, _⟩ => ⟨S1x300x512, .f32⟩
  | .local _ .vmem, ⟨13, _⟩ => ⟨S1x300x512, .f32⟩
  | _, _ => ⟨S32x300x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg5_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem5_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S32x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![32], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x300x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x512x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1x300x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  reducesTo_S32x1024x512_S32x512_d1 : S32x1024x512.ReducesTo [1] S32x512
  h_S_ : 0 < S_.numel
  bcast_S_S32x512 : S_.BroadcastsInDim S32x512 (![] : Fin 0 → Fin S32x512.rank)
  shapeCasts_S512x512x512_S262144x512 : S512x512x512.ShapeCasts S262144x512
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  bitsLt_bf16_f32 : FTy.bits .bf16 < FTy.bits .f32
  inb_S32x512_S32x512_0_0 : ∀ a, (![0, 0] : Fin 2 → Nat) a + S32x512.size a ≤ S32x512.size a
  h_S32x512 : 0 < S32x512.numel
  shapeCasts_S32x512_S32x512 : S32x512.ShapeCasts S32x512
  inb_S32x4096_S32x4096_0_0 : ∀ a, (![0, 0] : Fin 2 → Nat) a + S32x4096.size a ≤ S32x4096.size a
  h_S32x4096 : 0 < S32x4096.numel
  packedbf16_S32x4096_S32x4096_0_0 : (Rect.unit (s := S32x4096) ![0, 0] S32x4096.size inb_S32x4096_S32x4096_0_0).PackedRows (EltTy.packing .bf16)
  shapeCasts_S32x262144_S32x512x512 : S32x262144.ShapeCasts S32x512x512
  inb_S1x300x512_S1x300x512_0_0_0 : ∀ a, (![0, 0, 0] : Fin 3 → Nat) a + S1x300x512.size a ≤ S1x300x512.size a
  h_S1x300x512 : 0 < S1x300x512.numel
  shapeCasts_S1x300x512_S300x512 : S1x300x512.ShapeCasts S300x512
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  inb_S512_S512_0 : ∀ a, (![0] : Fin 1 → Nat) a + S512.size a ≤ S512.size a
  h_S512 : 0 < S512.numel
  shapeCasts_S512_S1x512 : S512.ShapeCasts S1x512
  broadcasts_S1x512_S300x512 : S1x512.Broadcasts S300x512
  reduces_S300x512_S300 : S300x512.Reduces [1] S300
  shapeCasts_S300_S300x1 : S300.ShapeCasts S300x1
  broadcasts_S300x1_S300x512 : S300x1.Broadcasts S300x512
  shapeCasts_S300x512_S1x300x512 : S300x512.ShapeCasts S1x300x512
  dot_S32x512_S4096x512_S32x4096_1_1_0_0_n_n_wf : DotDims.WF S32x512 S4096x512 S32x4096 [1] [1] [0] [0] [] []
  dot_S300x512_S512x512_S300x512_1_1_0_0_n_n_wf : DotDims.WF S300x512 S512x512 S300x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x512.size a ≤ S262144x512.size a
  hwx0_0 : ∀ i : grid0.Coords, EltTy.bits .f32 = 32 ∨ (Rect.block (s := S262144x512) S4096x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x512.size a ≤ S32x512.size a
  hwx0_1 : ∀ i : grid0.Coords, EltTy.bits .f32 = 32 ∨ (Rect.block (s := S32x512) S32x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x4096.size a ≤ S32x262144.size a
  hwx0_2 : ∀ i : grid0.Coords, EltTy.bits .bf16 = 32 ∨ (Rect.block (s := S32x262144) S32x4096.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x300x512.size a ≤ S32x300x512.size a
  hwx1_0 : ∀ i : grid1.Coords, EltTy.bits .f32 = 32 ∨ (Rect.block (s := S32x300x512) S1x300x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x512.size a ≤ S32x512x512.size a
  hwx1_1 : ∀ i : grid1.Coords, EltTy.bits .bf16 = 32 ∨ (Rect.block (s := S32x512x512) S1x512x512.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512.size a ≤ S512.size a
  hwx1_2 : ∀ i : grid1.Coords, EltTy.bits .f32 = 32 ∨ (Rect.block (s := S512) S512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512.size a ≤ S512.size a
  hwx1_3 : ∀ i : grid1.Coords, EltTy.bits .f32 = 32 ∨ (Rect.block (s := S512) S512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S512.size a ≤ S512.size a
  hwx1_4 : ∀ i : grid1.Coords, EltTy.bits .f32 = 32 ∨ (Rect.block (s := S512) S512.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x300x512.size a ≤ S32x300x512.size a
  hwx1_5 : ∀ i : grid1.Coords, EltTy.bits .f32 = 32 ∨ (Rect.block (s := S32x300x512) S1x300x512.size (cc1_transform_5 i) (hinb1_5 i)).WholeWords (EltTy.packing .f32)

variable [Facts₀]

def dot_S32x512_S4096x512_S32x4096_1_1_0_0_n_n : DotDims S32x512 S4096x512 S32x4096 where
  lhsContracting := [1]
  rhsContracting := [1]
  lhsNonContracting := [0]
  rhsNonContracting := [0]
  lhsBatch := []
  rhsBatch := []
  wf := dot_S32x512_S4096x512_S32x4096_1_1_0_0_n_n_wf
def dot_S300x512_S512x512_S300x512_1_1_0_0_n_n : DotDims S300x512 S512x512 S300x512 where
  lhsContracting := [1]
  rhsContracting := [1]
  lhsNonContracting := [0]
  rhsNonContracting := [0]
  lhsBatch := []
  rhsBatch := []
  wf := dot_S300x512_S512x512_S300x512_1_1_0_0_n_n_wf

abbrev win0_0 : Pipeline.Window sig grid0 :=
  Pipeline.Window.ofSpec (Memref.whole main_v3) S4096x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S32x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S32x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S1x300x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S1x512x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v6) S1x300x512.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S32x300x512 : Shape := ⟨3, ![32, 300, 512]⟩
abbrev S32x1024x512 : Shape := ⟨3, ![32, 1024, 512]⟩
abbrev S512x512x512 : Shape := ⟨3, ![512, 512, 512]⟩
abbrev S512 : Shape := ⟨1, ![512]⟩
abbrev S_ : Shape := ⟨0, ![]⟩
abbrev S32x512 : Shape := ⟨2, ![32, 512]⟩
abbrev S32x512x512 : Shape := ⟨3, ![32, 512, 512]⟩
abbrev S1x1x512 : Shape := ⟨3, ![1, 1, 512]⟩
abbrev S32x300 : Shape := ⟨2, ![32, 300]⟩
abbrev S32x300x1 : Shape := ⟨3, ![32, 300, 1]⟩

abbrev nBuf : Space → Nat
  | .hbm => 46
  | .vmem => 0
  | .smem => 0
  | _ => 0

abbrev bufTy : (tb : Table) → Fin (tcTables nBuf tb) → BufTy
  | .hbm, ⟨0, _⟩ => ⟨S32x300x512, .f32⟩
  | .hbm, ⟨1, _⟩ => ⟨S32x1024x512, .f32⟩
  | .hbm, ⟨2, _⟩ => ⟨S512x512x512, .f32⟩
  | .hbm, ⟨3, _⟩ => ⟨S512, .f32⟩
  | .hbm, ⟨4, _⟩ => ⟨S512, .f32⟩
  | .hbm, ⟨5, _⟩ => ⟨S512, .f32⟩
  | .hbm, ⟨6, _⟩ => ⟨S_, .f32⟩
  | .hbm, ⟨7, _⟩ => ⟨S32x512, .f32⟩
  | .hbm, ⟨8, _⟩ => ⟨S_, .f32⟩
  | .hbm, ⟨9, _⟩ => ⟨S32x512, .f32⟩
  | .hbm, ⟨10, _⟩ => ⟨S32x512, .f32⟩
  | .hbm, ⟨11, _⟩ => ⟨S32x512x512, .f32⟩
  | .hbm, ⟨12, _⟩ => ⟨S32x300x512, .f32⟩
  | .hbm, ⟨13, _⟩ => ⟨S1x1x512, .f32⟩
  | .hbm, ⟨14, _⟩ => ⟨S32x300x512, .f32⟩
  | .hbm, ⟨15, _⟩ => ⟨S32x300x512, .f32⟩
  | .hbm, ⟨16, _⟩ => ⟨S32x300x512, .f32⟩
  | .hbm, ⟨17, _⟩ => ⟨S_, .f32⟩
  | .hbm, ⟨18, _⟩ => ⟨S32x300, .f32⟩
  | .hbm, ⟨19, _⟩ => ⟨S32x300x1, .f32⟩
  | .hbm, ⟨20, _⟩ => ⟨S_, .f32⟩
  | .hbm, ⟨21, _⟩ => ⟨S32x300x1, .f32⟩
  | .hbm, ⟨22, _⟩ => ⟨S32x300x1, .f32⟩
  | .hbm, ⟨23, _⟩ => ⟨S32x300x512, .f32⟩
  | .hbm, ⟨24, _⟩ => ⟨S32x300x512, .f32⟩
  | .hbm, ⟨25, _⟩ => ⟨S32x300x512, .f32⟩
  | .hbm, ⟨26, _⟩ => ⟨S_, .f32⟩
  | .hbm, ⟨27, _⟩ => ⟨S32x300, .f32⟩
  | .hbm, ⟨28, _⟩ => ⟨S32x300x1, .f32⟩
  | .hbm, ⟨29, _⟩ => ⟨S_, .f32⟩
  | .hbm, ⟨30, _⟩ => ⟨S32x300x1, .f32⟩
  | .hbm, ⟨31, _⟩ => ⟨S32x300x1, .f32⟩
  | .hbm, ⟨32, _⟩ => ⟨S32x300x512, .f32⟩
  | .hbm, ⟨33, _⟩ => ⟨S32x300x512, .f32⟩
  | .hbm, ⟨34, _⟩ => ⟨S_, .f32⟩
  | .hbm, ⟨35, _⟩ => ⟨S32x300x1, .f32⟩
  | .hbm, ⟨36, _⟩ => ⟨S32x300x1, .f32⟩
  | .hbm, ⟨37, _⟩ => ⟨S32x300x1, .f32⟩
  | .hbm, ⟨38, _⟩ => ⟨S32x300x512, .f32⟩
  | .hbm, ⟨39, _⟩ => ⟨S32x300x512, .f32⟩
  | .hbm, ⟨40, _⟩ => ⟨S1x1x512, .f32⟩
  | .hbm, ⟨41, _⟩ => ⟨S32x300x512, .f32⟩
  | .hbm, ⟨42, _⟩ => ⟨S32x300x512, .f32⟩
  | .hbm, ⟨43, _⟩ => ⟨S1x1x512, .f32⟩
  | .hbm, ⟨44, _⟩ => ⟨S32x300x512, .f32⟩
  | .hbm, ⟨45, _⟩ => ⟨S32x300x512, .f32⟩
  | _, _ => ⟨S32x300x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_5 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩

abbrev nD : Nat := 1
abbrev τ : Topo := Topo.v7x

variable {F : FTy → Type} [FloatOps F]

class Facts₀ : Prop where
  reducesTo_S32x1024x512_S32x512_d1 : S32x1024x512.ReducesTo [1] S32x512
  h_S_ : 0 < S_.numel
  bcast_S_S32x512 : S_.BroadcastsInDim S32x512 (![] : Fin 0 → Fin S32x512.rank)
  bcast_S512_S1x1x512_2 : S512.BroadcastsInDim S1x1x512 (![2] : Fin 1 → Fin S1x1x512.rank)
  bcast_S1x1x512_S32x300x512_0_1_2 : S1x1x512.BroadcastsInDim S32x300x512 (![0, 1, 2] : Fin 3 → Fin S32x300x512.rank)
  reducesTo_S32x300x512_S32x300_d2 : S32x300x512.ReducesTo [2] S32x300
  bcast_S32x300_S32x300x1_0_1 : S32x300.BroadcastsInDim S32x300x1 (![0, 1] : Fin 2 → Fin S32x300x1.rank)
  bcast_S_S32x300x1 : S_.BroadcastsInDim S32x300x1 (![] : Fin 0 → Fin S32x300x1.rank)
  bcast_S32x300x1_S32x300x512_0_1_2 : S32x300x1.BroadcastsInDim S32x300x512 (![0, 1, 2] : Fin 3 → Fin S32x300x512.rank)
  dot_S32x512_S512x512x512_S32x512x512_1_2_0_01_n_n_wf : DotDims.WF S32x512 S512x512x512 S32x512x512 [1] [2] [0] [0, 1] [] []
  dot_S32x300x512_S32x512x512_S32x300x512_2_2_1_1_0_0_wf : DotDims.WF S32x300x512 S32x512x512 S32x300x512 [2] [2] [1] [1] [0] [0]

variable [Facts₀]

def dot_S32x512_S512x512x512_S32x512x512_1_2_0_01_n_n : DotDims S32x512 S512x512x512 S32x512x512 where
  lhsContracting := [1]
  rhsContracting := [2]
  lhsNonContracting := [0]
  rhsNonContracting := [0, 1]
  lhsBatch := []
  rhsBatch := []
  wf := dot_S32x512_S512x512x512_S32x512x512_1_2_0_01_n_n_wf
def dot_S32x300x512_S32x512x512_S32x300x512_2_2_1_1_0_0 : DotDims S32x300x512 S32x512x512 S32x300x512 where
  lhsContracting := [2]
  rhsContracting := [2]
  lhsNonContracting := [1]
  rhsNonContracting := [1]
  lhsBatch := [0]
  rhsBatch := [0]
  wf := dot_S32x300x512_S32x512x512_S32x300x512_2_2_1_1_0_0_wf

class Facts : Prop extends Facts₀ where

variable [Facts]
-- ==== Proof.Spec.lean ====
/-
  The mathematics both programs compute, stated once over plain index tuples.

  With B the [32,1024,512] array, W the [512,512,512] weights, A the [32,300,512] features:
    bm[b,e]    = (Σ_j B[b,j,e]) / 1024                       (kept as one host term, shared by both programs)
    t[b,k,d]   = Σ_e bm[b,e] · W[k,d,e]
    x[b,a,k]   = (Σ_d A[b,a,d] · t[b,k,d] + bias[k]) + A[b,a,k]
    μ[b,a]     = (Σ_k x[b,a,k]) / 512
    v[b,a]     = (Σ_k (x[b,a,k] − μ[b,a])²) / 512
    out[b,a,k] = (x[b,a,k] − μ[b,a]) · rsqrt(v[b,a] + ε) · γ[k] + β[k]
  on the extended reals. The kernel computes t in 64 column blocks of a [32, 512·512] matrix and the
  normalisation one batch row at a time; the reference computes both with whole-array contractions.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The shapes of the arguments and of the intermediate contraction. -/
abbrev SA : Shape := ⟨3, ![32, 300, 512]⟩
abbrev SB : Shape := ⟨3, ![32, 1024, 512]⟩
abbrev SW : Shape := ⟨3, ![512, 512, 512]⟩
abbrev SV : Shape := ⟨1, ![512]⟩
abbrev SM : Shape := ⟨2, ![32, 512]⟩
abbrev ST : Shape := ⟨3, ![32, 512, 512]⟩
abbrev SWf : Shape := ⟨2, ![262144, 512]⟩
abbrev STf : Shape := ⟨2, ![32, 262144]⟩
abbrev S0 : Shape := ⟨0, ![]⟩

/-- The divisor 512 and the ε of the normalisation, as the f32 patterns both programs carry. -/
abbrev c512 : EReal := Ideal.ofBits .f32 0x44000000#32
abbrev eps : EReal := Ideal.ofBits .f32 0x3727C5AC#32

/-- The mean of B over its middle axis, as the host computes it (a sum from 0, then a quotient by 1024): both
    programs apply these same operations, so the term is carried whole and never opened. -/
def bmeanV (h1 : SB.ReducesTo [1] SM) (h2 : 0 < S0.numel) (h3 : S0.BroadcastsInDim SM (![] : Fin 0 → Fin SM.rank))
    (B : FVec Ideal SB .f32) : FVec Ideal SM .f32 :=
  Host.divf (Host.reduceAdd B (constant S0 .f32 0x00000000#32) h1 h2)
    (broadcastInDim SM ![] h3 (constant S0 .f32 0x44800000#32))

/-- t[b,k,d] = Σ_e bm[b,e] · W[k,d,e]. -/
def tval (bm : SM.Idx → EReal) (W : SW.Idx → EReal) (b : Fin 32) (k d : Fin 512) : EReal :=
  ∑ e : Fin 512, bm (ix2 b e) * W (ix3 k d e)

/-- The same contraction over W flattened to [512·512, 512], at a flat column index. -/
def tflat (bm : SM.Idx → EReal) (Wf : SWf.Idx → EReal) : STf.Idx → EReal := fun j =>
  ∑ e : Fin 512, bm (ix2 (⟨(j 0).val, (j 0).isLt⟩ : Fin 32) e) * Wf (ix2 (⟨(j 1).val, (j 1).isLt⟩ : Fin 262144) e)

/-- x[b,a,k] = (Σ_d A[b,a,d] · t[b,k,d] + bias[k]) + A[b,a,k]. -/
def xrow (A : SA.Idx → EReal) (t : Fin 32 → Fin 512 → Fin 512 → EReal) (bias : SV.Idx → EReal)
    (b : Fin 32) (a : Fin 300) (k : Fin 512) : EReal :=
  ((∑ d : Fin 512, A (ix3 b a d) * t b k d) + bias (ix1 k)) + A (ix3 b a k)

/-- The mean of a row of 512 entries: the sum divided by the f32 constant 512. -/
def mean (x : Fin 512 → EReal) : EReal := Ideal.div (∑ k : Fin 512, x k) c512

/-- One entry of the normalised row: (x_k − μ) · rsqrt(v + ε) · g + bt. -/
def ln (x : Fin 512 → EReal) (k : Fin 512) (g bt : EReal) : EReal :=
  ((x k - mean x) * Ideal.rsqrt (mean (fun j => (x j - mean x) * (x j - mean x)) + eps)) * g + bt

/-- The result array from A, the contraction t, and the three vectors. -/
def O (A : SA.Idx → EReal) (t : Fin 32 → Fin 512 → Fin 512 → EReal) (bias gamma beta : SV.Idx → EReal) : SA.Idx → EReal :=
  fun i =>
    ln (xrow A t bias (⟨(i 0).val, (i 0).isLt⟩ : Fin 32) (⟨(i 1).val, (i 1).isLt⟩ : Fin 300))
      (⟨(i 2).val, (i 2).isLt⟩ : Fin 512)
      (gamma (ix1 (⟨(i 2).val, (i 2).isLt⟩ : Fin 512))) (beta (ix1 (⟨(i 2).val, (i 2).isLt⟩ : Fin 512)))

/-- The whole function of the arguments. -/
def G (A : SA.Idx → EReal) (bm : SM.Idx → EReal) (W : SW.Idx → EReal) (bias gamma beta : SV.Idx → EReal) : SA.Idx → EReal :=
  O A (tval bm W) bias gamma beta

end Cert.Spec

end
-- ==== Proof.Region0.lean ====
/-
  The first call's result, entry by entry.

  Grid point t multiplies the [32,512] mean array (every point sees all of it) with rows 4096·t … 4096·t+4095 of the
  weights flattened to [512·512, 512], contracting the last axis of both, and writes the [32,4096] product as block
  column t of the [32, 512·512] result. An entry (p, 4096·t + q) is therefore Σ_e bm[p,e] · Wf[4096·t + q, e]: the same
  sum whatever the tiling, and the 64 block columns tile the result, so the array is the flat contraction.
-/
import proofs.«158117_j36129264894658_1_alg».proof.Proof.Gen.KernelIdeal.Frame
import proofs.«158117_j36129264894658_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Cert.KernelIdeal Cert.KernelIdeal.Gen Idealize.ShloMosaic Idealize.ShloMosaic.TcCoe Idealize.SL.Sem
open Idealize.ShloMosaic.ValueIdx

/-! ## The block product at an entry -/

/-- The left operand of the block product is read at (row of the result, contracted position) … -/
private theorem lhs_blockdot_0 (i : S32x4096.Idx) (q : dot_S32x512_S4096x512_S32x4096_1_1_0_0_n_n.contr.Idx) :
    (dot_S32x512_S4096x512_S32x4096_1_1_0_0_n_n.lhsIdx i q 0).val = (i 0).val := by
  unfold DotDims.lhsIdx
  rw [dif_neg (show ¬(0 : Fin S32x512.rank) ∈ dot_S32x512_S4096x512_S32x4096_1_1_0_0_n_n.lhsBatch by decide), dif_pos (show (0 : Fin S32x512.rank) ∈ dot_S32x512_S4096x512_S32x4096_1_1_0_0_n_n.lhsNonContracting by decide)]
  rfl
private theorem lhs_blockdot_1 (i : S32x4096.Idx) (q : dot_S32x512_S4096x512_S32x4096_1_1_0_0_n_n.contr.Idx) :
    (dot_S32x512_S4096x512_S32x4096_1_1_0_0_n_n.lhsIdx i q 1).val = (q ⟨0, by decide⟩).val :=
  dot_S32x512_S4096x512_S32x4096_1_1_0_0_n_n.lhsIdx_val_of_single rfl i q
/-- … and the right operand at (column of the result, contracted position): both are contracted on their second axis. -/
private theorem rhs_blockdot_0 (i : S32x4096.Idx) (q : dot_S32x512_S4096x512_S32x4096_1_1_0_0_n_n.contr.Idx) :
    (dot_S32x512_S4096x512_S32x4096_1_1_0_0_n_n.rhsIdx i q 0).val = (i 1).val := by
  unfold DotDims.rhsIdx
  rw [dif_neg (show ¬(0 : Fin S4096x512.rank) ∈ dot_S32x512_S4096x512_S32x4096_1_1_0_0_n_n.rhsBatch by decide), dif_pos (show (0 : Fin S4096x512.rank) ∈ dot_S32x512_S4096x512_S32x4096_1_1_0_0_n_n.rhsNonContracting by decide)]
  rfl
private theorem rhs_blockdot_1 (i : S32x4096.Idx) (q : dot_S32x512_S4096x512_S32x4096_1_1_0_0_n_n.contr.Idx) :
    (dot_S32x512_S4096x512_S32x4096_1_1_0_0_n_n.rhsIdx i q 1).val = (q ⟨0, by decide⟩).val :=
  dot_S32x512_S4096x512_S32x4096_1_1_0_0_n_n.rhsIdx_val_of_single rfl i q

/-- What one grid point stores, at entry (p, q) of its [32, 4096] block: the sum over the 512 contracted positions of
    the mean block's row p times the weight block's row q (the shape casts are identities, the format changes are the
    identity on the extended reals, the accumulator starts at zero). -/
private theorem pay_apply (x0 : Vec Ideal S4096x512 .f32) (x1 : Vec Ideal S32x512 .f32) (p : Fin 32) (q : Fin 4096) :
    k0_pay1 (F := Ideal) x0 x1 (ix2 p q) = ∑ e : Fin 512, x1 (ix2 p e) * x0 (ix2 q e) := by
  unfold k0_pay1
  refine (Ideal.matmul_constant_zero_apply dot_S32x512_S4096x512_S32x4096_1_1_0_0_n_n none _ _ (ix2 p q)).trans ?_
  rw [← Equiv.sum_comp (ValueIdx.contrEquiv1 dot_S32x512_S4096x512_S32x4096_1_1_0_0_n_n 512 rfl rfl).symm]
  refine Finset.sum_congr rfl fun k _ => ?_
  have hk := ValueIdx.contrEquiv1_symm_val dot_S32x512_S4096x512_S32x4096_1_1_0_0_n_n 512 rfl rfl k
  have el : dot_S32x512_S4096x512_S32x4096_1_1_0_0_n_n.lhsIdx (ix2 p q) ((ValueIdx.contrEquiv1 dot_S32x512_S4096x512_S32x4096_1_1_0_0_n_n 512 rfl rfl).symm k) = ix2 p k := funext fun a => Fin.ext (by
    match a with
    | ⟨0, _⟩ => exact lhs_blockdot_0 _ _
    | ⟨1, _⟩ => exact (lhs_blockdot_1 _ _).trans hk)
  have er : dot_S32x512_S4096x512_S32x4096_1_1_0_0_n_n.rhsIdx (ix2 p q) ((ValueIdx.contrEquiv1 dot_S32x512_S4096x512_S32x4096_1_1_0_0_n_n 512 rfl rfl).symm k) = ix2 q k := funext fun a => Fin.ext (by
    match a with
    | ⟨0, _⟩ => exact rhs_blockdot_0 _ _
    | ⟨1, _⟩ => exact (rhs_blockdot_1 _ _).trans hk)
  rw [el, er]
  rw [shapeCast_self, shapeCast_self]
  rfl

/-! ## One grid point's block, as a block of the whole contraction -/

/-- Entry j of a point's stored block is the contraction at array entry i, as soon as the point's weight block x0 is
    rows T·4096 … of the flattened weights, its mean block x1 is all of the mean array, and i is j moved T·4096 columns
    to the right. -/
private theorem point_eq (bm : Cert.Spec.SM.Idx → EReal) (Wf : Cert.Spec.SWf.Idx → EReal)
    (x0 : Vec Ideal S4096x512 .f32) (x1 : Vec Ideal S32x512 .f32) (T : Nat)
    (h0 : ∀ (q : Fin 4096) (e : Fin 512) (k : Cert.Spec.SWf.Idx), (k 0).val = T * 4096 + q.val → (k 1).val = e.val → x0 (ix2 q e) = Wf k)
    (h1 : ∀ (p : Fin 32) (e : Fin 512), x1 (ix2 p e) = bm (ix2 p e))
    (j : S32x4096.Idx) (i : Cert.Spec.STf.Idx) (hi0 : (i 0).val = (j 0).val) (hi1 : (i 1).val = T * 4096 + (j 1).val) :
    k0_pay1 (F := Ideal) x0 x1 j = Cert.Spec.tflat bm Wf i := by
  obtain ⟨p, q, rfl⟩ : ∃ (p : Fin 32) (q : Fin 4096), j = ix2 p q := ⟨j 0, j 1, eq_ix2 j⟩
  rw [pay_apply]
  have e0 : (⟨(i 0).val, (i 0).isLt⟩ : Fin 32) = p := Fin.ext hi0
  show _ = ∑ e : Fin 512, bm (ix2 (⟨(i 0).val, (i 0).isLt⟩ : Fin 32) e) * Wf (ix2 (⟨(i 1).val, (i 1).isLt⟩ : Fin 262144) e)
  rw [e0]
  refine Finset.sum_congr rfl fun e _ => ?_
  rw [h1 p e, h0 q e (ix2 (⟨(i 1).val, (i 1).isLt⟩ : Fin 262144) e) hi1 rfl]

private theorem hz : (![0, 0] : Fin 2 → Nat) = fun _ => 0 := funext fun a => by fin_cases a <;> rfl

/-- The index maps over the 64 grid points: point t takes block row t of the flattened weights, the one block
    of the mean array, and writes block column t of the result. -/
private theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = t.val :=
  (by decide +kernel : ∀ t : Fin grid0.N, _)

section
variable (V : (c : Dev nD) → (b : Ref sig .tc) → Buf (Elt Ideal) ((c : Thread nD τ).loc b)) (c : Dev nD)

/-- Point t's weight block is rows 4096·t … 4096·t + 4095 of the flattened weights. -/
private theorem wblock_apply (t : Fin cfg0.N) (x : S4096x512.Idx) (k : S262144x512.Idx)
    (hk0 : (k 0).val = t.val * 4096 + (x 0).val) (hk1 : (k 1).val = (x 1).val) :
    (iblk0 (F := Ideal) V c 0 t : Vec Ideal S4096x512 .f32) x = (V c main_v3 : S262144x512.Idx → EReal) k := by
  obtain ⟨e0, e1, -, -, -, -⟩ := idx_facts t
  unfold iblk0
  rw [View.read_apply]
  show V c main_v3 _ = V c main_v3 _
  congr 1
  funext a
  apply Fin.ext
  match a with
  | ⟨0, _⟩ => show win0_0.index t 0 * 4096 + 1 * (x 0).val = (k 0).val; rw [e0, hk0]; omega
  | ⟨1, _⟩ => show win0_0.index t 1 * 512 + 1 * (x 1).val = (k 1).val; rw [e1, hk1]; omega

/-- Point t's mean block is the whole mean array. -/
private theorem mblock_apply (t : Fin cfg0.N) (x : S32x512.Idx) :
    (iblk0 (F := Ideal) V c 1 t : Vec Ideal S32x512 .f32) x = (V c main_v2 : S32x512.Idx → EReal) x := by
  obtain ⟨-, -, e2, e3, -, -⟩ := idx_facts t
  unfold iblk0
  rw [View.read_apply]
  show V c main_v2 _ = V c main_v2 _
  congr 1
  funext a
  apply Fin.ext
  match a with
  | ⟨0, _⟩ => show win0_1.index t 0 * 32 + 1 * (x 0).val = (x 0).val; rw [e2]; omega
  | ⟨1, _⟩ => show win0_1.index t 1 * 512 + 1 * (x 1).val = (x 1).val; rw [e3]; omega

/-- What point t writes back is block column t of the whole contraction. -/
private theorem flushed_eq (t : Fin cfg0.N) :
    (dat0 (F := Ideal) V c).flushed 2 t = ((cfg0.win 2).blk t).view.read (Elt Ideal) (Cert.Spec.tflat (V c main_v2) (V c main_v3)) := by
  show (cfg0.win 2).cut (grid0.coords t) ((dat0 V c).after 2 t) = _
  rw [after0_2]
  unfold out0_2
  rw [View.canon_unit_zero hz]
  simp only [View.ld_unit_zero (S := S4096x512) hz, View.ld_unit_zero (S := S32x512) hz]
  obtain ⟨-, -, -, -, e4, e5⟩ := idx_facts t
  funext j
  refine point_eq (V c main_v2) (V c main_v3) (iblk0 V c 0 t) (iblk0 V c 1 t) t.val
    (fun q e k hk0 hk1 => wblock_apply V c t (ix2 q e) k hk0 hk1) (fun p e => mblock_apply V c t (ix2 p e))
    ((cfg0.win 2).xinj (grid0.coords t) j) (((cfg0.win 2).blk t).view.emb j) ?_ ?_
  · show win0_2.index t 0 * 32 + 1 * (j 0).val = (j 0).val; rw [e4]; omega
  · show win0_2.index t 1 * 4096 + 1 * (j 1).val = t.val * 4096 + (j 1).val; rw [e5]; omega
end

/-! ## From the 64 block columns to the array -/

section
variable (V : (c : Dev nD) → (b : Ref sig .tc) → Buf (Elt Ideal) ((c : Thread nD τ).loc b)) (c : Dev nD)

/-- An entry of the result array is in point t's block iff each coordinate is in the block's range on its axis. -/
private theorem mem_blk (t : Fin cfg0.N) (i : S32x262144.Idx) :
    i ∈ ((cfg0.win 2).blk t).view.set ↔ ∀ a : Fin 2, win0_2.index t a * S32x4096.size a ≤ (i a).val ∧ (i a).val < win0_2.index t a * S32x4096.size a + S32x4096.size a := by
  show i ∈ ((View.whole main_v4).slice (win0_2.rect t)).set ↔ _
  rw [View.set_slice_whole, Rect.mem_set_unit]
  exact Iff.rfl

/-- Every column r of the result lies in the block column r / 4096, which some point writes: the blocks tile the array. -/
private theorem cover (i : S32x262144.Idx) :
    ∃ t : Fin cfg0.N, (cfg0.win 2).flush t = true ∧ i ∈ ((cfg0.win 2).blk t).view.set := by
  have hN : cfg0.N = 64 := N_0
  have hi0 : (i 0).val < 32 := (i 0).isLt
  have hi1 : (i 1).val < 262144 := (i 1).isLt
  refine ⟨⟨(i 1).val / 4096, by rw [hN]; omega⟩, flush0_2 _, ?_⟩
  rw [mem_blk]
  obtain ⟨-, -, -, -, e4, e5⟩ := idx_facts ⟨(i 1).val / 4096, by rw [hN]; omega⟩
  intro a
  match a with
  | ⟨0, _⟩ =>
    show win0_2.index _ (0 : Fin 2) * 32 ≤ (i 0).val ∧ (i 0).val < win0_2.index _ (0 : Fin 2) * 32 + 32
    rw [e4]; omega
  | ⟨1, _⟩ =>
    show win0_2.index _ (1 : Fin 2) * 4096 ≤ (i 1).val ∧ (i 1).val < win0_2.index _ (1 : Fin 2) * 4096 + 4096
    rw [e5]
    show (i 1).val / 4096 * 4096 ≤ (i 1).val ∧ (i 1).val < (i 1).val / 4096 * 4096 + 4096
    omega
end

/-- The first call's result array, after its 64 points: the contraction of the mean array with the flattened weights,
    entry by entry. -/
theorem arr0 (V : (c : Dev nD) → (b : Ref sig .tc) → Buf (Elt Ideal) ((c : Thread nD τ).loc b)) (c : Dev nD) :
    (dat0 (F := Ideal) V c).arrAt 2 cfg0.N = Cert.Spec.tflat (V c main_v2) (V c main_v3) :=
  (dat0 (F := Ideal) V c).arrAt_eq_of_cover 2 (Cert.Spec.tflat (V c main_v2) (V c main_v3))
    (fun t _ => flushed_eq V c t) cover

end Cert.KernelIdeal.Region0

end
-- ==== Proof.Region1Payload.lean ====
/-
  What the second kernel stores for one batch, entry by entry.

  The body drops the block's unit axis, forms the row array x = A·tᵀ + bias + A (one product of the [300,512] block
  with the [512,512] block, both contracted on their last axis, into a zero accumulator), takes each row's mean (the
  lane sum from zero divided by 512), the mean of the squared centred row, adds ε, takes the reciprocal root, scales by
  gamma, shifts by beta and puts the unit axis back. Read at (u, a, k) every layout step names one operand entry and
  every arithmetic step is pointwise, so the stored entry is the specification's normalisation of row a at lane k.
-/
import proofs.«158117_j36129264894658_1_alg».proof.Proof.Gen.KernelIdeal.Skeleton
import proofs.«158117_j36129264894658_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1Payload

open Cert.KernelIdeal Cert.KernelIdeal.Gen Idealize.ShloMosaic Idealize.ShloMosaic.TcCoe Idealize.SL.Sem
open Idealize.ShloMosaic.ValueIdx

/-! ## Layout operations at explicit coordinates -/

/-- An `[a]` array cast to `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The lane sum of a `[300, 512]` array from the zero word, at row `a`: the sum of the row's 512 entries. -/
theorem laneSum_apply (src : FVec Ideal S300x512 .f32) (hφ : FKind.Formats .f32)
    (hacc : (0x00000000#32 : BitVec 32) = FKind.add.neutral .f32 hφ) (a : Fin 300) :
    multiReduction (F := Ideal) .add [1] S300 src 0x00000000#32 reduces_S300x512_S300 hφ hacc (ix1 a)
      = ∑ k : Fin 512, src (ix2 a k) := by
  refine (Ideal.multiReduction_add_single src _ reduces_S300x512_S300 hφ hacc (ix1 a)).trans ?_
  refine Finset.sum_congr rfl fun k _ => congrArg src ?_
  funext d
  apply Fin.ext
  match d with
  | ⟨0, _⟩ => rfl
  | ⟨1, _⟩ => rfl

/-! ## The product at an index -/

theorem mm_lhs_0 (i : S300x512.Idx) (q : dot_S300x512_S512x512_S300x512_1_1_0_0_n_n.contr.Idx) :
    (dot_S300x512_S512x512_S300x512_1_1_0_0_n_n.lhsIdx i q 0).val = (i 0).val := by
  unfold DotDims.lhsIdx
  rw [dif_neg (show ¬(0 : Fin S300x512.rank) ∈ dot_S300x512_S512x512_S300x512_1_1_0_0_n_n.lhsBatch by decide), dif_pos (show (0 : Fin S300x512.rank) ∈ dot_S300x512_S512x512_S300x512_1_1_0_0_n_n.lhsNonContracting by decide)]
  rfl
theorem mm_lhs_1 (i : S300x512.Idx) (q : dot_S300x512_S512x512_S300x512_1_1_0_0_n_n.contr.Idx) :
    (dot_S300x512_S512x512_S300x512_1_1_0_0_n_n.lhsIdx i q 1).val = (q ⟨0, by decide⟩).val :=
  dot_S300x512_S512x512_S300x512_1_1_0_0_n_n.lhsIdx_val_of_single rfl i q
theorem mm_rhs_0 (i : S300x512.Idx) (q : dot_S300x512_S512x512_S300x512_1_1_0_0_n_n.contr.Idx) :
    (dot_S300x512_S512x512_S300x512_1_1_0_0_n_n.rhsIdx i q 0).val = (i 1).val := by
  unfold DotDims.rhsIdx
  rw [dif_neg (show ¬(0 : Fin S512x512.rank) ∈ dot_S300x512_S512x512_S300x512_1_1_0_0_n_n.rhsBatch by decide), dif_pos (show (0 : Fin S512x512.rank) ∈ dot_S300x512_S512x512_S300x512_1_1_0_0_n_n.rhsNonContracting by decide)]
  rfl
theorem mm_rhs_1 (i : S300x512.Idx) (q : dot_S300x512_S512x512_S300x512_1_1_0_0_n_n.contr.Idx) :
    (dot_S300x512_S512x512_S300x512_1_1_0_0_n_n.rhsIdx i q 1).val = (q ⟨0, by decide⟩).val :=
  dot_S300x512_S512x512_S300x512_1_1_0_0_n_n.rhsIdx_val_of_single rfl i q

/-- The product `[300,512] × [512,512]`, both contracted on their second axis, into a zero accumulator: entry
    `(a, k)` is the sum over `d` of the left operand's `(a, d)` times the right operand's `(k, d)`. -/
theorem mm_apply (lhs : FVec Ideal S300x512 .bf16) (rhs : FVec Ideal S512x512 .bf16) (a : Fin 300) (k : Fin 512) :
    matmul (F := Ideal) dot_S300x512_S512x512_S300x512_1_1_0_0_n_n none lhs rhs (constant (F := Ideal) S300x512 .f32 0x00000000#32) (ix2 a k)
      = ∑ d : Fin 512, lhs (ix2 a d) * rhs (ix2 k d) := by
  simp only [matmul]
  rw [Ideal.matmul_constant_zero_apply, ← Equiv.sum_comp (ValueIdx.contrEquiv1 dot_S300x512_S512x512_S300x512_1_1_0_0_n_n 512 rfl rfl).symm]
  refine Finset.sum_congr rfl fun d _ => ?_
  have hd := ValueIdx.contrEquiv1_symm_val dot_S300x512_S512x512_S300x512_1_1_0_0_n_n 512 rfl rfl d
  have el : dot_S300x512_S512x512_S300x512_1_1_0_0_n_n.lhsIdx (ix2 a k) ((ValueIdx.contrEquiv1 dot_S300x512_S512x512_S300x512_1_1_0_0_n_n 512 rfl rfl).symm d) = ix2 a d := funext fun x => Fin.ext (by
    match x with
    | ⟨0, _⟩ => exact mm_lhs_0 _ _
    | ⟨1, _⟩ => exact (mm_lhs_1 _ _).trans hd)
  have er : dot_S300x512_S512x512_S300x512_1_1_0_0_n_n.rhsIdx (ix2 a k) ((ValueIdx.contrEquiv1 dot_S300x512_S512x512_S300x512_1_1_0_0_n_n 512 rfl rfl).symm d) = ix2 k d := funext fun x => Fin.ext (by
    match x with
    | ⟨0, _⟩ => exact mm_rhs_0 _ _
    | ⟨1, _⟩ => exact (mm_rhs_1 _ _).trans hd)
  rw [el, er]

/-! ## The body's value, cut at the row array -/

/-- A reciprocal square root of a vector is taken entry by entry. -/
theorem rsqrt_apply {s : Shape} {φ : FTy} (v : FVec Ideal s φ) (i : s.Idx) : rsqrt v i = Ideal.rsqrt (v i) := rfl

/-- The row array x: the product of the left block with the contraction block, plus the bias row, plus the left
    block itself. -/
def rowsV (x0 : FVec Ideal S1x300x512 .f32) (x1 : FVec Ideal S1x512x512 .bf16) (x2 : FVec Ideal S512 .f32) :
    FVec Ideal S300x512 .f32 :=
  addf (addf (matmul dot_S300x512_S512x512_S300x512_1_1_0_0_n_n none
        (truncf .bf16 (shapeCast S300x512 x0 shapeCasts_S1x300x512_S300x512) bitsLt_bf16_f32)
        (shapeCast S512x512 x1 shapeCasts_S1x512x512_S512x512) (constant S300x512 .f32 0x00000000#32))
      (broadcastTo S300x512 (shapeCast S1x512 x2 shapeCasts_S512_S1x512) broadcasts_S1x512_S300x512))
    (shapeCast S300x512 x0 shapeCasts_S1x300x512_S300x512)

/-- The mean of each row, kept as a column: the lane sum from zero, divided by 512. -/
def meanV (v : FVec Ideal S300x512 .f32) : FVec Ideal S300x1 .f32 :=
  divf (shapeCast S300x1 (multiReduction .add [1] S300 v 0x00000000#32 reduces_S300x512_S300 (.inl rfl) rfl) shapeCasts_S300_S300x1)
    (broadcast S300x1 (Scalar.ofBits .f32 0x44000000#32))

/-- Each row minus its mean. -/
def centV (v : FVec Ideal S300x512 .f32) : FVec Ideal S300x512 .f32 :=
  subf v (broadcastTo S300x512 (meanV v) broadcasts_S300x1_S300x512)

/-- The normalised rows, scaled by gamma and shifted by beta, with the unit axis put back. -/
def normV (v : FVec Ideal S300x512 .f32) (g b : FVec Ideal S512 .f32) : FVec Ideal S1x300x512 .f32 :=
  shapeCast S1x300x512
    (addf (mulf (mulf (centV v)
          (broadcastTo S300x512 (rsqrt (addf (meanV (mulf (centV v) (centV v))) (broadcast S300x1 (Scalar.ofBits .f32 0x3727C5AC#32)))) broadcasts_S300x1_S300x512))
        (broadcastTo S300x512 (shapeCast S1x512 g shapeCasts_S512_S1x512) broadcasts_S1x512_S300x512))
      (broadcastTo S300x512 (shapeCast S1x512 b shapeCasts_S512_S1x512) broadcasts_S1x512_S300x512))
    shapeCasts_S300x512_S1x300x512

/-- The body's stored value is the normalisation of the row array: the same operations, named. -/
theorem pay_eq (x0 : FVec Ideal S1x300x512 .f32) (x1 : FVec Ideal S1x512x512 .bf16) (x2 x3 x4 : FVec Ideal S512 .f32) :
    k1_pay1 (F := Ideal) x0 x1 x2 x3 x4 = normV (rowsV x0 x1 x2) x3 x4 := rfl

/-- Entry (a, k) of the row array: Σ_d x0[0,a,d] · x1[0,k,d], plus bias[k], plus x0[0,a,k]. -/
theorem rowsV_apply (x0 : FVec Ideal S1x300x512 .f32) (x1 : FVec Ideal S1x512x512 .bf16) (x2 : FVec Ideal S512 .f32)
    (a : Fin 300) (k : Fin 512) :
    rowsV x0 x1 x2 (ix2 a k)
      = ((∑ d : Fin 512, x0 (ix3 (0 : Fin 1) a d) * x1 (ix3 (0 : Fin 1) k d)) + x2 (ix1 k)) + x0 (ix3 (0 : Fin 1) a k) := by
  unfold rowsV
  rw [addf_apply, addf_apply, mm_apply, broadcastTo_1b_ab_apply, shapeCast_a_1a_apply, shapeCast_1ab_ab_apply]
  refine congrArg (fun z => z + x2 (ix1 k) + x0 (ix3 (0 : Fin 1) a k)) (Finset.sum_congr rfl fun d _ => ?_)
  rw [truncf_apply, shapeCast_1ab_ab_apply, shapeCast_1ab_ab_apply]

/-- Entry (a, ·) of the mean column is the mean of row a. -/
theorem meanV_apply (v : FVec Ideal S300x512 .f32) (a : Fin 300) (u : Fin 1) :
    meanV v (ix2 a u) = Cert.Spec.mean (fun k => v (ix2 a k)) := by
  unfold meanV
  rw [divf_apply, shapeCast_a_a1_apply, broadcast_apply]
  exact congrArg (fun z => Ideal.div z (Ideal.ofBits .f32 0x44000000#32)) (laneSum_apply v _ _ a)

/-- Entry (a, k) of the centred rows. -/
theorem centV_apply (v : FVec Ideal S300x512 .f32) (a : Fin 300) (k : Fin 512) :
    centV v (ix2 a k) = v (ix2 a k) - Cert.Spec.mean (fun k' => v (ix2 a k')) := by
  unfold centV
  rw [subf_apply, broadcastTo_a1_ab_apply, meanV_apply]

/-- Entry (u, a, k) of the normalised block is the normalisation of row a at lane k. -/
theorem normV_apply (v : FVec Ideal S300x512 .f32) (g b : FVec Ideal S512 .f32) (u : Fin 1) (a : Fin 300) (k : Fin 512) :
    normV v g b (ix3 u a k) = Cert.Spec.ln (fun k' => v (ix2 a k')) k (g (ix1 k)) (b (ix1 k)) := by
  have hsq : (fun j : Fin 512 => mulf (centV v) (centV v) (ix2 a j))
      = fun j => (v (ix2 a j) - Cert.Spec.mean (fun k' => v (ix2 a k'))) * (v (ix2 a j) - Cert.Spec.mean (fun k' => v (ix2 a k'))) :=
    funext fun j => by rw [mulf_apply, centV_apply]
  unfold normV
  rw [shapeCast_ab_1ab_apply, addf_apply, mulf_apply, mulf_apply, centV_apply, broadcastTo_a1_ab_apply, rsqrt_apply,
    addf_apply, meanV_apply, hsq, broadcast_apply, broadcastTo_1b_ab_apply, shapeCast_a_1a_apply,
    broadcastTo_1b_ab_apply, shapeCast_a_1a_apply]
  rfl

/-- THE BODY'S VALUE AT AN INDEX: entry (u, a, k) is the normalisation, at lane k, of the row
    k' ↦ Σ_d x0[0,a,d] · x1[0,k',d] + bias[k'] + x0[0,a,k'], scaled by gamma[k] and shifted by beta[k]. -/
theorem pay_apply (x0 : FVec Ideal S1x300x512 .f32) (x1 : FVec Ideal S1x512x512 .bf16) (x2 x3 x4 : FVec Ideal S512 .f32)
    (u : Fin 1) (a : Fin 300) (k : Fin 512) :
    k1_pay1 (F := Ideal) x0 x1 x2 x3 x4 (ix3 u a k)
      = Cert.Spec.ln (fun k' => ((∑ d : Fin 512, x0 (ix3 (0 : Fin 1) a d) * x1 (ix3 (0 : Fin 1) k' d)) + x2 (ix1 k')) + x0 (ix3 (0 : Fin 1) a k'))
          k (x3 (ix1 k)) (x4 (ix1 k)) := by
  rw [pay_eq, normV_apply]
  refine congrArg (fun f => Cert.Spec.ln f k (x3 (ix1 k)) (x4 (ix1 k))) (funext fun k' => ?_)
  exact rowsV_apply x0 x1 x2 a k'

/-- One entry of what the second kernel stores for a batch: the normalised row of
    x[a,k'] = (Σ_d A[a,d] · t[k',d] + bias[k']) + A[a,k'], times gamma, plus beta. -/
theorem pay1_apply (x0 : Vec Ideal S1x300x512 .f32) (x1 : Vec Ideal S1x512x512 .bf16) (x2 x3 x4 : Vec Ideal S512 .f32)
    (u : Fin 1) (a : Fin 300) (k : Fin 512) :
    k1_pay1 x0 x1 x2 x3 x4 (ix3 u a k)
      = Cert.Spec.ln (fun k' => ((∑ d : Fin 512, x0 (ix3 (0 : Fin 1) a d) * x1 (ix3 (0 : Fin 1) k' d)) + x2 (ix1 k')) + x0 (ix3 (0 : Fin 1) a k'))
          k (x3 (ix1 k)) (x4 (ix1 k)) :=
  pay_apply x0 x1 x2 x3 x4 u a k

end Cert.KernelIdeal.Region1Payload

end
-- ==== Proof.Region1.lean ====
/-
  The second call's result, entry by entry.

  Grid point t (one per batch) reads block t of A [32,300,512] and of the contraction t [32,512,512] along the batch
  axis, and the whole bias, gamma and beta vectors, and writes block t of the result. What it stores at (·, a, k) is the
  normalisation of the row x[t,a,·] at lane k (the payload read at an index), and the block's entries are the arrays'
  entries at batch t, so the stored block is block t of the specification; the 32 blocks tile the result.
-/
import proofs.«158117_j36129264894658_1_alg».proof.Proof.Gen.KernelIdeal.Frame
import proofs.«158117_j36129264894658_1_alg».proof.Proof.Spec
import proofs.«158117_j36129264894658_1_alg».proof.Proof.Region1Payload
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen Idealize.ShloMosaic Idealize.ShloMosaic.TcCoe Idealize.SL.Sem
open Idealize.ShloMosaic.ValueIdx

/-! ## One grid point's block, as a batch row of the whole result -/

/-- Entry j of the block a point stores is the result at array entry i, as soon as the point's feature block x0 and
    contraction block x1 are batch row b of their arrays, its three vector blocks are the whole vectors, and i is j
    placed in batch row b. -/
private theorem point_eq (A : Cert.Spec.SA.Idx → EReal) (Tt : S32x512x512.Idx → EReal) (bias gamma beta : Cert.Spec.SV.Idx → EReal)
    (x0 : Vec Ideal S1x300x512 .f32) (x1 : Vec Ideal S1x512x512 .bf16) (x2 x3 x4 : Vec Ideal S512 .f32) (b : Fin 32)
    (h0 : ∀ (a : Fin 300) (d : Fin 512), x0 (ix3 (0 : Fin 1) a d) = A (ix3 b a d))
    (h1 : ∀ (k d : Fin 512), x1 (ix3 (0 : Fin 1) k d) = Tt (ix3 b k d))
    (h2 : ∀ k : Fin 512, x2 (ix1 k) = bias (ix1 k))
    (h3 : ∀ k : Fin 512, x3 (ix1 k) = gamma (ix1 k))
    (h4 : ∀ k : Fin 512, x4 (ix1 k) = beta (ix1 k))
    (j : S1x300x512.Idx) (i : Cert.Spec.SA.Idx)
    (hi0 : (i 0).val = b.val) (hi1 : (i 1).val = (j 1).val) (hi2 : (i 2).val = (j 2).val) :
    k1_pay1 (F := Ideal) x0 x1 x2 x3 x4 j = Cert.Spec.O A (fun b k d => Tt (ix3 b k d)) bias gamma beta i := by
  obtain ⟨u, a, k, rfl⟩ : ∃ (u : Fin 1) (a : Fin 300) (k : Fin 512), j = ix3 u a k := ⟨j 0, j 1, j 2, eq_ix3 j⟩
  rw [Cert.KernelIdeal.Region1Payload.pay1_apply]
  have eb : (⟨(i 0).val, (i 0).isLt⟩ : Fin 32) = b := Fin.ext hi0
  have ea : (⟨(i 1).val, (i 1).isLt⟩ : Fin 300) = a := Fin.ext hi1
  have ek : (⟨(i 2).val, (i 2).isLt⟩ : Fin 512) = k := Fin.ext hi2
  show _ = Cert.Spec.ln (Cert.Spec.xrow A (fun b k d => Tt (ix3 b k d)) bias (⟨(i 0).val, (i 0).isLt⟩ : Fin 32) (⟨(i 1).val, (i 1).isLt⟩ : Fin 300))
      (⟨(i 2).val, (i 2).isLt⟩ : Fin 512)
      (gamma (ix1 (⟨(i 2).val, (i 2).isLt⟩ : Fin 512))) (beta (ix1 (⟨(i 2).val, (i 2).isLt⟩ : Fin 512)))
  rw [eb, ea, ek, h3 k, h4 k]
  have hx : (fun k' : Fin 512 => ((∑ d : Fin 512, x0 (ix3 (0 : Fin 1) a d) * x1 (ix3 (0 : Fin 1) k' d)) + x2 (ix1 k')) + x0 (ix3 (0 : Fin 1) a k'))
      = Cert.Spec.xrow A (fun b k d => Tt (ix3 b k d)) bias b a := by
    funext k'
    unfold Cert.Spec.xrow
    rw [h2 k', h0 a k']
    refine congrArg (fun s => s + bias (ix1 k') + A (ix3 b a k')) ?_
    exact Finset.sum_congr rfl fun d _ => by rw [h0 a d, h1 k' d]
  rw [hx]

private theorem hz3 : (![0, 0, 0] : Fin 3 → Nat) = fun _ => 0 := funext fun a => by fin_cases a <;> rfl
private theorem hz1 : (![0] : Fin 1 → Nat) = fun _ => 0 := funext fun a => by fin_cases a <;> rfl

/-- The index maps over the 32 grid points: point t takes batch row t of the features and of the contraction, the
    whole of each vector, and writes batch row t of the result. -/
private theorem idx_facts : ∀ t : Fin cfg1.N,
    win1_0.index t (0 : Fin 3) = t.val ∧ win1_0.index t (1 : Fin 3) = 0 ∧ win1_0.index t (2 : Fin 3) = 0
    ∧ win1_1.index t (0 : Fin 3) = t.val ∧ win1_1.index t (1 : Fin 3) = 0 ∧ win1_1.index t (2 : Fin 3) = 0
    ∧ win1_2.index t (0 : Fin 1) = 0 ∧ win1_3.index t (0 : Fin 1) = 0 ∧ win1_4.index t (0 : Fin 1) = 0
    ∧ win1_5.index t (0 : Fin 3) = t.val ∧ win1_5.index t (1 : Fin 3) = 0 ∧ win1_5.index t (2 : Fin 3) = 0 :=
  (by decide +kernel : ∀ t : Fin grid1.N, _)

section
variable (V : (c : Dev nD) → (b : Ref sig .tc) → Buf (Elt Ideal) ((c : Thread nD τ).loc b)) (c : Dev nD)

/-- Point t's feature block is batch row t of the features. -/
private theorem ablock_apply (t : Fin cfg1.N) (x : S1x300x512.Idx) (k : S32x300x512.Idx)
    (hk0 : (k 0).val = t.val) (hk1 : (k 1).val = (x 1).val) (hk2 : (k 2).val = (x 2).val) :
    (iblk1 (F := Ideal) V c 0 t : Vec Ideal S1x300x512 .f32) x = (V c main_arg0 : S32x300x512.Idx → EReal) k := by
  obtain ⟨e0, e1, e2, -⟩ := idx_facts t
  have hx0 : (x 0).val < 1 := (x 0).isLt
  unfold iblk1
  rw [View.read_apply]
  show V c main_arg0 _ = V c main_arg0 _
  congr 1
  funext a
  apply Fin.ext
  match a with
  | ⟨0, _⟩ => show win1_0.index t 0 * 1 + 1 * (x 0).val = (k 0).val; rw [e0, hk0]; omega
  | ⟨1, _⟩ => show win1_0.index t 1 * 300 + 1 * (x 1).val = (k 1).val; rw [e1, hk1]; omega
  | ⟨2, _⟩ => show win1_0.index t 2 * 512 + 1 * (x 2).val = (k 2).val; rw [e2, hk2]; omega

/-- Point t's contraction block is batch row t of the contraction. -/
private theorem tblock_apply (t : Fin cfg1.N) (x : S1x512x512.Idx) (k : S32x512x512.Idx)
    (hk0 : (k 0).val = t.val) (hk1 : (k 1).val = (x 1).val) (hk2 : (k 2).val = (x 2).val) :
    (iblk1 (F := Ideal) V c 1 t : Vec Ideal S1x512x512 .bf16) x = (V c main_v5 : S32x512x512.Idx → EReal) k := by
  obtain ⟨-, -, -, e0, e1, e2, -⟩ := idx_facts t
  have hx0 : (x 0).val < 1 := (x 0).isLt
  unfold iblk1
  rw [View.read_apply]
  show V c main_v5 _ = V c main_v5 _
  congr 1
  funext a
  apply Fin.ext
  match a with
  | ⟨0, _⟩ => show win1_1.index t 0 * 1 + 1 * (x 0).val = (k 0).val; rw [e0, hk0]; omega
  | ⟨1, _⟩ => show win1_1.index t 1 * 512 + 1 * (x 1).val = (k 1).val; rw [e1, hk1]; omega
  | ⟨2, _⟩ => show win1_1.index t 2 * 512 + 1 * (x 2).val = (k 2).val; rw [e2, hk2]; omega

/-- Each of the three vector blocks is its whole vector, at every point. -/
private theorem bias_apply (t : Fin cfg1.N) (x : S512.Idx) :
    (iblk1 (F := Ideal) V c 2 t : Vec Ideal S512 .f32) x = (V c main_arg3 : S512.Idx → EReal) x := by
  obtain ⟨-, -, -, -, -, -, e, -⟩ := idx_facts t
  unfold iblk1
  rw [View.read_apply]
  show V c main_arg3 _ = V c main_arg3 _
  congr 1
  funext a
  apply Fin.ext
  match a with
  | ⟨0, _⟩ => show win1_2.index t 0 * 512 + 1 * (x 0).val = (x 0).val; rw [e]; omega
private theorem gamma_apply (t : Fin cfg1.N) (x : S512.Idx) :
    (iblk1 (F := Ideal) V c 3 t : Vec Ideal S512 .f32) x = (V c main_arg4 : S512.Idx → EReal) x := by
  obtain ⟨-, -, -, -, -, -, -, e, -⟩ := idx_facts t
  unfold iblk1
  rw [View.read_apply]
  show V c main_arg4 _ = V c main_arg4 _
  congr 1
  funext a
  apply Fin.ext
  match a with
  | ⟨0, _⟩ => show win1_3.index t 0 * 512 + 1 * (x 0).val = (x 0).val; rw [e]; omega
private theorem beta_apply (t : Fin cfg1.N) (x : S512.Idx) :
    (iblk1 (F := Ideal) V c 4 t : Vec Ideal S512 .f32) x = (V c main_arg5 : S512.Idx → EReal) x := by
  obtain ⟨-, -, -, -, -, -, -, -, e, -⟩ := idx_facts t
  unfold iblk1
  rw [View.read_apply]
  show V c main_arg5 _ = V c main_arg5 _
  congr 1
  funext a
  apply Fin.ext
  match a with
  | ⟨0, _⟩ => show win1_4.index t 0 * 512 + 1 * (x 0).val = (x 0).val; rw [e]; omega

/-- What point t writes back is batch row t of the whole result. -/
private theorem flushed_eq (t : Fin cfg1.N) :
    (dat1 (F := Ideal) V c).flushed 5 t = ((cfg1.win 5).blk t).view.read (Elt Ideal)
      (Cert.Spec.O (V c main_arg0) (fun b k d => V c main_v5 (ix3 b k d)) (V c main_arg3) (V c main_arg4) (V c main_arg5)) := by
  show (cfg1.win 5).cut (grid1.coords t) ((dat1 V c).after 5 t) = _
  rw [after1_5]
  unfold out1_5
  rw [View.canon_unit_zero hz3]
  simp only [View.ld_unit_zero (S := S1x300x512) hz3, View.ld_unit_zero (S := S1x512x512) hz3, View.ld_unit_zero (S := S512) hz1]
  obtain ⟨-, -, -, -, -, -, -, -, -, e0, e1, e2⟩ := idx_facts t
  have hN : cfg1.N = 32 := N_1
  have ht : t.val < 32 := hN ▸ t.isLt
  funext j
  have hj0 : (j 0).val < 1 := (j 0).isLt
  refine point_eq (V c main_arg0) (V c main_v5) (V c main_arg3) (V c main_arg4) (V c main_arg5)
    (iblk1 V c 0 t) (iblk1 V c 1 t) (iblk1 V c 2 t) (iblk1 V c 3 t) (iblk1 V c 4 t) ⟨t.val, ht⟩
    (fun a d => ablock_apply V c t (ix3 (0 : Fin 1) a d) (ix3 (⟨t.val, ht⟩ : Fin 32) a d) rfl rfl rfl)
    (fun k d => tblock_apply V c t (ix3 (0 : Fin 1) k d) (ix3 (⟨t.val, ht⟩ : Fin 32) k d) rfl rfl rfl)
    (fun k => bias_apply V c t (ix1 k)) (fun k => gamma_apply V c t (ix1 k)) (fun k => beta_apply V c t (ix1 k))
    ((cfg1.win 5).xinj (grid1.coords t) j) (((cfg1.win 5).blk t).view.emb j) ?_ ?_ ?_
  · show win1_5.index t 0 * 1 + 1 * (j 0).val = t.val; rw [e0]; omega
  · show win1_5.index t 1 * 300 + 1 * (j 1).val = (j 1).val; rw [e1]; omega
  · show win1_5.index t 2 * 512 + 1 * (j 2).val = (j 2).val; rw [e2]; omega
end

/-! ## From the 32 batch rows to the array -/

/-- An entry of the result array is in point t's block iff each coordinate is in the block's range on its axis. -/
private theorem mem_blk (t : Fin cfg1.N) (i : S32x300x512.Idx) :
    i ∈ ((cfg1.win 5).blk t).view.set ↔ ∀ a : Fin 3, win1_5.index t a * S1x300x512.size a ≤ (i a).val ∧ (i a).val < win1_5.index t a * S1x300x512.size a + S1x300x512.size a := by
  show i ∈ ((View.whole main_v6).slice (win1_5.rect t)).set ↔ _
  rw [View.set_slice_whole, Rect.mem_set_unit]
  exact Iff.rfl

/-- Batch row b of the result is the block of point b, which is written back: the 32 blocks tile the array. -/
private theorem cover (i : S32x300x512.Idx) :
    ∃ t : Fin cfg1.N, (cfg1.win 5).flush t = true ∧ i ∈ ((cfg1.win 5).blk t).view.set := by
  have hN : cfg1.N = 32 := N_1
  have hi0 : (i 0).val < 32 := (i 0).isLt
  have hi1 : (i 1).val < 300 := (i 1).isLt
  have hi2 : (i 2).val < 512 := (i 2).isLt
  refine ⟨⟨(i 0).val, by rw [hN]; omega⟩, flush1_5 _, ?_⟩
  rw [mem_blk]
  obtain ⟨-, -, -, -, -, -, -, -, -, e0, e1, e2⟩ := idx_facts ⟨(i 0).val, by rw [hN]; omega⟩
  intro a
  match a with
  | ⟨0, _⟩ =>
    show win1_5.index _ (0 : Fin 3) * 1 ≤ (i 0).val ∧ (i 0).val < win1_5.index _ (0 : Fin 3) * 1 + 1
    rw [e0]
    show (i 0).val * 1 ≤ (i 0).val ∧ (i 0).val < (i 0).val * 1 + 1
    omega
  | ⟨1, _⟩ =>
    show win1_5.index _ (1 : Fin 3) * 300 ≤ (i 1).val ∧ (i 1).val < win1_5.index _ (1 : Fin 3) * 300 + 300
    rw [e1]; omega
  | ⟨2, _⟩ =>
    show win1_5.index _ (2 : Fin 3) * 512 ≤ (i 2).val ∧ (i 2).val < win1_5.index _ (2 : Fin 3) * 512 + 512
    rw [e2]; omega

/-- The second call's result array, after its 32 points: the normalised rows of the whole arrays, entry by entry. -/
theorem arr1 (V : (c : Dev nD) → (b : Ref sig .tc) → Buf (Elt Ideal) ((c : Thread nD τ).loc b)) (c : Dev nD) :
    (dat1 (F := Ideal) V c).arrAt 5 cfg1.N
      = Cert.Spec.O (V c main_arg0) (fun b k d => V c main_v5 (ix3 b k d)) (V c main_arg3) (V c main_arg4) (V c main_arg5) :=
  (dat1 (F := Ideal) V c).arrAt_eq_of_cover 5
    (Cert.Spec.O (V c main_arg0) (fun b k d => V c main_v5 (ix3 b k d)) (V c main_arg3) (V c main_arg4) (V c main_arg5))
    (fun t _ => flushed_eq V c t) cover

end Cert.KernelIdeal.Region1

end
-- ==== Proof.KernelValue.lean ====
/-
  The kernel program's result as the specification of its arguments.

  The run's last boundary holds, at the result buffer, what the second region's write-backs leave; that region
  entered with the arguments as launched and with the contraction t laid out [32,512,512], a re-laying of the first
  region's [32, 512·512] output; the first region entered with the mean of B over its middle axis (the host's sum
  and quotient) and with W re-laid [512·512, 512]. Both re-layings keep the row-major position, so
  t[b,k,d] = Σ_e bm[b,e] · W[k,d,e] and the result is the specification.
-/
import proofs.«158117_j36129264894658_1_alg».proof.Proof.Gen.KernelIdeal.Frame
import proofs.«158117_j36129264894658_1_alg».proof.Proof.Spec
import proofs.«158117_j36129264894658_1_alg».proof.Proof.Region0
import proofs.«158117_j36129264894658_1_alg».proof.Proof.Region1
import Idealize.ShloMosaic.Lib.StableHlo.Run
import Idealize.ShloMosaic.Lib.Pipeline.Value
import Idealize.ShloMosaic.Lib.ValueIdx

set_option maxRecDepth 16384

noncomputable section

namespace Cert.KernelIdeal.KValue

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (ρ : Dev nD → PrngReg)

/-! ## What each region is entered with -/

/-- The first region's [32,512] operand is the mean of B over its middle axis, as the host computes it. -/
theorem entry0_bmean (c : Dev nD) :
    V1 m ρ c main_v2
      = Cert.Spec.bmeanV reducesTo_S32x1024x512_S32x512_d1 h_S_ bcast_S_S32x512 (m ((c : Thread nD τ).loc main_arg1)) := by
  show StableHlo.after hostOps0 (W0 m ρ c) (Proc.devRef .tc main_v2) = _
  after_results
  rfl

/-- The first region's [512·512, 512] operand is W re-laid. -/
theorem entry0_w (c : Dev nD) :
    V1 m ρ c main_v3 = shapeCast S262144x512 (m ((c : Thread nD τ).loc main_arg2)) shapeCasts_S512x512x512_S262144x512 := by
  show StableHlo.after hostOps0 (W0 m ρ c) (Proc.devRef .tc main_v3) = _
  after_results
  rfl

/-- The second region's [32,512,512] operand is the first region's output re-laid. -/
theorem entry1_t (c : Dev nD) :
    V3 m ρ c main_v5
      = shapeCast S32x512x512 ((dat0 (F := Ideal) (V1 m ρ) c).arrAt 2 cfg0.N) shapeCasts_S32x262144_S32x512x512 := by
  show StableHlo.after hostOps1 (W2 m ρ c) (Proc.devRef .tc main_v5) = _
  after_results
  rw [show W2 m ρ c (Proc.devRef .tc main_v4) = (dat0 (F := Ideal) (V1 m ρ) c).arrAt 2 cfg0.N from W2_arr m ρ c 2]
  rfl

/-- Argument 0 reaches the second region as launched: no host operation and no region writes it. -/
theorem entry1_arg0 (c : Dev nD) : V3 m ρ c main_arg0 = m ((c : Thread nD τ).loc main_arg0) :=
  calc W3 m ρ c (Proc.devRef .tc main_arg0)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

/-- Argument 3 reaches the second region as launched: no host operation and no region writes it. -/
theorem entry1_arg3 (c : Dev nD) : V3 m ρ c main_arg3 = m ((c : Thread nD τ).loc main_arg3) :=
  calc W3 m ρ c (Proc.devRef .tc main_arg3)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-- Argument 4 reaches the second region as launched: no host operation and no region writes it. -/
theorem entry1_arg4 (c : Dev nD) : V3 m ρ c main_arg4 = m ((c : Thread nD τ).loc main_arg4) :=
  calc W3 m ρ c (Proc.devRef .tc main_arg4)
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

/-- Argument 5 reaches the second region as launched: no host operation and no region writes it. -/
theorem entry1_arg5 (c : Dev nD) : V3 m ρ c main_arg5 = m ((c : Thread nD τ).loc main_arg5) :=
  calc W3 m ρ c (Proc.devRef .tc main_arg5)
    _ = W2 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

/-! ## The contraction, entry by entry -/

/-- Position (k·512+d, e) of W re-laid [512·512, 512] is W[k,d,e], so the flat contraction at column k·512+d is t[b,k,d]. -/
theorem tflat_relaid (bm : Cert.Spec.SM.Idx → EReal) (W : Cert.Spec.SW.Idx → EReal) (h : Cert.Spec.SW.ShapeCasts Cert.Spec.SWf)
    (b : Fin 32) (k d : Fin 512) (hq : k.val * 512 + d.val < 262144) :
    Cert.Spec.tflat bm (shapeCast Cert.Spec.SWf W h) (ix2 b (⟨k.val * 512 + d.val, hq⟩ : Fin 262144)) = Cert.Spec.tval bm W b k d := by
  unfold Cert.Spec.tflat Cert.Spec.tval
  refine Finset.sum_congr rfl fun e _ => ?_
  refine congrArg (_ * ·) ?_
  exact shapeCast_apply W h (ix2 (⟨k.val * 512 + d.val, hq⟩ : Fin 262144) e) (ix3 k d e) (by
    rw [Shape.rowMajor_val_two, Shape.rowMajor_val_three]
    show (k.val * 512 + d.val) * 512 + e.val = (k.val * 512 + d.val) * 512 + e.val
    rfl)

/-- t[b,k,d] as the second region finds it: position (b,k,d) of [32,512,512] is position (b, k·512+d) of [32, 512·512],
    and row k·512+d of the re-laid W is W[k,d,·]. -/
theorem entry1_t_apply (c : Dev nD) (b : Fin 32) (k d : Fin 512) :
    V3 m ρ c main_v5 (ix3 b k d)
      = Cert.Spec.tval (Cert.Spec.bmeanV reducesTo_S32x1024x512_S32x512_d1 h_S_ bcast_S_S32x512 (m ((c : Thread nD τ).loc main_arg1)))
          (m ((c : Thread nD τ).loc main_arg2)) b k d := by
  have hq : k.val * 512 + d.val < 262144 := by have := k.isLt; have := d.isLt; omega
  rw [entry1_t, Cert.KernelIdeal.Region0.arr0, entry0_bmean, entry0_w]
  refine (shapeCast_apply _ shapeCasts_S32x262144_S32x512x512 (ix3 b k d) (ix2 b (⟨k.val * 512 + d.val, hq⟩ : Fin 262144)) (by
    rw [Shape.rowMajor_val_two, Shape.rowMajor_val_three]
    show b.val * 262144 + (k.val * 512 + d.val) = (b.val * 512 + k.val) * 512 + d.val
    omega)).trans ?_
  exact tflat_relaid _ _ shapeCasts_S512x512x512_S262144x512 b k d hq

/-! ## The result -/

/-- The last boundary's contents at the result buffer are the specification of the launch contents of the arguments. -/
theorem result_eq (c : Dev nD) :
    W4 m ρ c (Proc.devRef .tc main_v6)
      = Cert.Spec.G (m ((c : Thread nD τ).loc main_arg0))
          (Cert.Spec.bmeanV reducesTo_S32x1024x512_S32x512_d1 h_S_ bcast_S_S32x512 (m ((c : Thread nD τ).loc main_arg1)))
          (m ((c : Thread nD τ).loc main_arg2)) (m ((c : Thread nD τ).loc main_arg3))
          (m ((c : Thread nD τ).loc main_arg4)) (m ((c : Thread nD τ).loc main_arg5)) := by
  rw [show W4 m ρ c (Proc.devRef .tc main_v6) = (dat1 (F := Ideal) (V3 m ρ) c).arrAt 5 cfg1.N from W4_arr m ρ c 5,
    Cert.KernelIdeal.Region1.arr1, entry1_arg0, entry1_arg3, entry1_arg4, entry1_arg5]
  unfold Cert.Spec.G
  exact congrArg (fun t => Cert.Spec.O _ t _ _ _)
    (funext fun b => funext fun k => funext fun d => entry1_t_apply m ρ c b k d)

end Cert.KernelIdeal.KValue

end
-- ==== Proof.RefValue.lean ====
/-
  The reference's result, entry by entry.

  Each host operation is read at an index: the two contractions as sums over the contracted axis, the two row sums as
  the zero word plus a sum over the last axis (0 + s = s), the broadcasts as reads of the one entry they repeat. Layer by
  layer — the row x, its mean, the centred row, the variance, the reciprocal root, the scaled and shifted result —
  the composed term at (b, a, k) is the specification's entry.
-/
import proofs.«158117_j36129264894658_1_alg».proof.Proof.Gen.ReferenceIdeal.Read
import proofs.«158117_j36129264894658_1_alg».proof.Proof.Spec
import Idealize.ShloMosaic.Lib.ValueIdx
import Idealize.ShloMosaic.PureOps.Ideal.Laws

set_option maxRecDepth 16384

noncomputable section

namespace Cert.ReferenceIdeal.RefValue

open Cert.ReferenceIdeal Cert.ReferenceIdeal.Gen Cert.ReferenceIdeal.Read Idealize.ShloMosaic Idealize.ShloMosaic.TcCoe Idealize.SL.Sem
open Idealize.ShloMosaic.ValueIdx

/-- The mean of B is the same host term on both sides: a sum from the zero word, then a quotient by the word of 1024. -/
theorem bmean_eq (x1 : (⟨S32x1024x512, .f32⟩ : BufTy).Contents (Elt Ideal)) :
    val_main_v2 (F := Ideal) x1 = Cert.Spec.bmeanV reducesTo_S32x1024x512_S32x512_d1 h_S_ bcast_S_S32x512 x1 := by
  unfold val_main_v2 val_main_v0 val_main_v1 val_main_cst val_main_cst_0 Cert.Spec.bmeanV
  rfl

/-- The first contraction reads bm at (b, e). -/
private theorem lidx3 (b : Fin 32) (k d e : Fin 512) : lidx_main_v3 (ix3 b k d) e = ix2 b e :=
  funext fun a => Fin.ext (by match a with | ⟨0, _⟩ => rfl | ⟨1, _⟩ => rfl)

/-- The first contraction reads W at (k, d, e). -/
private theorem ridx3 (b : Fin 32) (k d e : Fin 512) : ridx_main_v3 (ix3 b k d) e = ix3 k d e :=
  funext fun a => Fin.ext (by match a with | ⟨0, _⟩ => rfl | ⟨1, _⟩ => rfl | ⟨2, _⟩ => rfl)

theorem tval_eq (x1 : (⟨S32x1024x512, .f32⟩ : BufTy).Contents (Elt Ideal)) (x2 : (⟨S512x512x512, .f32⟩ : BufTy).Contents (Elt Ideal))
    (b : Fin 32) (k d : Fin 512) :
    val_main_v3 (F := Ideal) x1 x2 (ix3 b k d) = Cert.Spec.tval (val_main_v2 (F := Ideal) x1) x2 b k d := by
  rw [val_main_v3_apply]
  unfold Cert.Spec.tval
  refine Finset.sum_congr rfl fun e _ => ?_
  rw [lidx3, ridx3]

/-! ### The index maps of the second half, at coordinates -/

/-- The second contraction reads A at (b, a, d). -/
private theorem lidx4 (b : Fin 32) (a : Fin 300) (k d : Fin 512) : lidx_main_v4 (ix3 b a k) d = ix3 b a d :=
  funext fun c => Fin.ext (by match c with | ⟨0, _⟩ => rfl | ⟨1, _⟩ => rfl | ⟨2, _⟩ => rfl)

/-- The second contraction reads t at (b, k, d). -/
private theorem ridx4 (b : Fin 32) (a : Fin 300) (k d : Fin 512) : ridx_main_v4 (ix3 b a k) d = ix3 b k d :=
  funext fun c => Fin.ext (by match c with | ⟨0, _⟩ => rfl | ⟨1, _⟩ => rfl | ⟨2, _⟩ => rfl)

/-- A vector broadcast along the last axis is read at k. -/
private theorem idx56 (b : Fin 32) (a : Fin 300) (k : Fin 512) : idx_main_v5 (idx_main_v6 (ix3 b a k)) = ix1 k :=
  funext fun c => Fin.ext (by match c with | ⟨0, _⟩ => rfl)

private theorem idx2728 (b : Fin 32) (a : Fin 300) (k : Fin 512) : idx_main_v27 (idx_main_v28 (ix3 b a k)) = ix1 k :=
  funext fun c => Fin.ext (by match c with | ⟨0, _⟩ => rfl)

private theorem idx3031 (b : Fin 32) (a : Fin 300) (k : Fin 512) : idx_main_v30 (idx_main_v31 (ix3 b a k)) = ix1 k :=
  funext fun c => Fin.ext (by match c with | ⟨0, _⟩ => rfl)

/-- A row sum kept as a column reads the row (b, a) entry by entry. -/
private theorem idx910 (b : Fin 32) (a : Fin 300) (z : Fin 1) (k : Fin 512) :
    idx_main_v9 (idx_main_v10 (ix3 b a z)) k = ix3 b a k :=
  funext fun c => Fin.ext (by match c with | ⟨0, _⟩ => rfl | ⟨1, _⟩ => rfl | ⟨2, _⟩ => rfl)

private theorem idx1617 (b : Fin 32) (a : Fin 300) (z : Fin 1) (k : Fin 512) :
    idx_main_v16 (idx_main_v17 (ix3 b a z)) k = ix3 b a k :=
  funext fun c => Fin.ext (by match c with | ⟨0, _⟩ => rfl | ⟨1, _⟩ => rfl | ⟨2, _⟩ => rfl)

/-- A column broadcast back along the row is read at its one entry. -/
private theorem idx13 (b : Fin 32) (a : Fin 300) (k : Fin 512) : idx_main_v13 (ix3 b a k) = ix3 b a (⟨0, Nat.one_pos⟩ : Fin 1) :=
  funext fun c => Fin.ext (by match c with | ⟨0, _⟩ => rfl | ⟨1, _⟩ => rfl | ⟨2, _⟩ => rfl)

private theorem idx20 (b : Fin 32) (a : Fin 300) (k : Fin 512) : idx_main_v20 (ix3 b a k) = ix3 b a (⟨0, Nat.one_pos⟩ : Fin 1) :=
  funext fun c => Fin.ext (by match c with | ⟨0, _⟩ => rfl | ⟨1, _⟩ => rfl | ⟨2, _⟩ => rfl)

private theorem idx25 (b : Fin 32) (a : Fin 300) (k : Fin 512) : idx_main_v25 (ix3 b a k) = ix3 b a (⟨0, Nat.one_pos⟩ : Fin 1) :=
  funext fun c => Fin.ext (by match c with | ⟨0, _⟩ => rfl | ⟨1, _⟩ => rfl | ⟨2, _⟩ => rfl)

/-! ### The layers of the normalisation -/

/-- x[b,a,k]: the contraction of A with t, plus the bias, plus A. -/
private theorem row_eq (x0 : (⟨S32x300x512, .f32⟩ : BufTy).Contents (Elt Ideal)) (x1 : (⟨S32x1024x512, .f32⟩ : BufTy).Contents (Elt Ideal))
    (x2 : (⟨S512x512x512, .f32⟩ : BufTy).Contents (Elt Ideal)) (x3 : (⟨S512, .f32⟩ : BufTy).Contents (Elt Ideal))
    (b : Fin 32) (a : Fin 300) (k : Fin 512) :
    val_main_v8 (F := Ideal) x0 x1 x2 x3 (ix3 b a k)
      = Cert.Spec.xrow x0 (fun b k d => val_main_v3 (F := Ideal) x1 x2 (ix3 b k d)) x3 b a k := by
  rw [val_main_v8_apply, val_main_v7_apply, val_main_v4_apply, val_main_v6_apply, val_main_v5_apply]
  simp only [Ideal.addf_def, lidx4, ridx4, idx56]
  rfl

/-- μ[b,a]: the row sum from zero, divided by the word of 512. -/
private theorem mean_eq (x0 : (⟨S32x300x512, .f32⟩ : BufTy).Contents (Elt Ideal)) (x1 : (⟨S32x1024x512, .f32⟩ : BufTy).Contents (Elt Ideal))
    (x2 : (⟨S512x512x512, .f32⟩ : BufTy).Contents (Elt Ideal)) (x3 : (⟨S512, .f32⟩ : BufTy).Contents (Elt Ideal))
    (b : Fin 32) (a : Fin 300) (z : Fin 1) :
    val_main_v12 (F := Ideal) x0 x1 x2 x3 (ix3 b a z)
      = Cert.Spec.mean (Cert.Spec.xrow x0 (fun b k d => val_main_v3 (F := Ideal) x1 x2 (ix3 b k d)) x3 b a) := by
  rw [val_main_v12_apply, val_main_v10_apply, val_main_v9_apply, val_main_v11_apply, val_main_cst_2_apply, val_main_cst_1_apply]
  simp only [Ideal.hostDivf_def, Ideal.ofBits_def, Ideal.ofBits_zero_f32, zero_add, idx910, row_eq]
  rfl

/-- x[b,a,k] − μ[b,a], as the variance reads it. -/
private theorem cen_eq (x0 : (⟨S32x300x512, .f32⟩ : BufTy).Contents (Elt Ideal)) (x1 : (⟨S32x1024x512, .f32⟩ : BufTy).Contents (Elt Ideal))
    (x2 : (⟨S512x512x512, .f32⟩ : BufTy).Contents (Elt Ideal)) (x3 : (⟨S512, .f32⟩ : BufTy).Contents (Elt Ideal))
    (b : Fin 32) (a : Fin 300) (k : Fin 512) :
    val_main_v14 (F := Ideal) x0 x1 x2 x3 (ix3 b a k)
      = Cert.Spec.xrow x0 (fun b k d => val_main_v3 (F := Ideal) x1 x2 (ix3 b k d)) x3 b a k
        - Cert.Spec.mean (Cert.Spec.xrow x0 (fun b k d => val_main_v3 (F := Ideal) x1 x2 (ix3 b k d)) x3 b a) := by
  rw [val_main_v14_apply, val_main_v13_apply, idx13, mean_eq, row_eq]
  rfl

/-- x[b,a,k] − μ[b,a], as the result reads it (a second copy of the same broadcast). -/
private theorem cen'_eq (x0 : (⟨S32x300x512, .f32⟩ : BufTy).Contents (Elt Ideal)) (x1 : (⟨S32x1024x512, .f32⟩ : BufTy).Contents (Elt Ideal))
    (x2 : (⟨S512x512x512, .f32⟩ : BufTy).Contents (Elt Ideal)) (x3 : (⟨S512, .f32⟩ : BufTy).Contents (Elt Ideal))
    (b : Fin 32) (a : Fin 300) (k : Fin 512) :
    val_main_v21 (F := Ideal) x0 x1 x2 x3 (ix3 b a k)
      = Cert.Spec.xrow x0 (fun b k d => val_main_v3 (F := Ideal) x1 x2 (ix3 b k d)) x3 b a k
        - Cert.Spec.mean (Cert.Spec.xrow x0 (fun b k d => val_main_v3 (F := Ideal) x1 x2 (ix3 b k d)) x3 b a) := by
  rw [val_main_v21_apply, val_main_v20_apply, idx20, mean_eq, row_eq]
  rfl

/-- v[b,a]: the mean of the squared centred row. -/
private theorem var_eq (x0 : (⟨S32x300x512, .f32⟩ : BufTy).Contents (Elt Ideal)) (x1 : (⟨S32x1024x512, .f32⟩ : BufTy).Contents (Elt Ideal))
    (x2 : (⟨S512x512x512, .f32⟩ : BufTy).Contents (Elt Ideal)) (x3 : (⟨S512, .f32⟩ : BufTy).Contents (Elt Ideal))
    (b : Fin 32) (a : Fin 300) (z : Fin 1) :
    val_main_v19 (F := Ideal) x0 x1 x2 x3 (ix3 b a z)
      = Cert.Spec.mean (fun j =>
          (Cert.Spec.xrow x0 (fun b k d => val_main_v3 (F := Ideal) x1 x2 (ix3 b k d)) x3 b a j
            - Cert.Spec.mean (Cert.Spec.xrow x0 (fun b k d => val_main_v3 (F := Ideal) x1 x2 (ix3 b k d)) x3 b a))
          * (Cert.Spec.xrow x0 (fun b k d => val_main_v3 (F := Ideal) x1 x2 (ix3 b k d)) x3 b a j
            - Cert.Spec.mean (Cert.Spec.xrow x0 (fun b k d => val_main_v3 (F := Ideal) x1 x2 (ix3 b k d)) x3 b a))) := by
  rw [val_main_v19_apply, val_main_v17_apply, val_main_v16_apply, val_main_v18_apply, val_main_cst_4_apply, val_main_cst_3_apply]
  simp only [Ideal.hostDivf_def, Ideal.ofBits_def, Ideal.ofBits_zero_f32, zero_add, idx1617, val_main_v15_apply, Ideal.mulf_def, cen_eq]
  rfl

/-- rsqrt(v[b,a] + ε). -/
private theorem rstd_eq (x0 : (⟨S32x300x512, .f32⟩ : BufTy).Contents (Elt Ideal)) (x1 : (⟨S32x1024x512, .f32⟩ : BufTy).Contents (Elt Ideal))
    (x2 : (⟨S512x512x512, .f32⟩ : BufTy).Contents (Elt Ideal)) (x3 : (⟨S512, .f32⟩ : BufTy).Contents (Elt Ideal))
    (b : Fin 32) (a : Fin 300) (z : Fin 1) :
    val_main_v24 (F := Ideal) x0 x1 x2 x3 (ix3 b a z)
      = Ideal.rsqrt (Cert.Spec.mean (fun j =>
          (Cert.Spec.xrow x0 (fun b k d => val_main_v3 (F := Ideal) x1 x2 (ix3 b k d)) x3 b a j
            - Cert.Spec.mean (Cert.Spec.xrow x0 (fun b k d => val_main_v3 (F := Ideal) x1 x2 (ix3 b k d)) x3 b a))
          * (Cert.Spec.xrow x0 (fun b k d => val_main_v3 (F := Ideal) x1 x2 (ix3 b k d)) x3 b a j
            - Cert.Spec.mean (Cert.Spec.xrow x0 (fun b k d => val_main_v3 (F := Ideal) x1 x2 (ix3 b k d)) x3 b a))) + Cert.Spec.eps) := by
  rw [val_main_v24_apply, val_main_v23_apply, var_eq, val_main_v22_apply, val_main_cst_5_apply]
  rfl

/-- out[b,a,k] = (x − μ) · rsqrt(v + ε) · γ[k] + β[k]. -/
private theorem out_at (x0 : (⟨S32x300x512, .f32⟩ : BufTy).Contents (Elt Ideal)) (x1 : (⟨S32x1024x512, .f32⟩ : BufTy).Contents (Elt Ideal))
    (x2 : (⟨S512x512x512, .f32⟩ : BufTy).Contents (Elt Ideal)) (x3 x4 x5 : (⟨S512, .f32⟩ : BufTy).Contents (Elt Ideal))
    (b : Fin 32) (a : Fin 300) (k : Fin 512) :
    val_main_v32 (F := Ideal) x0 x1 x2 x3 x4 x5 (ix3 b a k)
      = Cert.Spec.ln (Cert.Spec.xrow x0 (fun b k d => val_main_v3 (F := Ideal) x1 x2 (ix3 b k d)) x3 b a) k (x4 (ix1 k)) (x5 (ix1 k)) := by
  rw [val_main_v32_apply, val_main_v31_apply, val_main_v30_apply, idx3031, val_main_v29_apply, val_main_v28_apply, val_main_v27_apply,
    idx2728, val_main_v26_apply, val_main_v25_apply, idx25, rstd_eq, cen'_eq]
  rfl

theorem out_eq (x0 : (⟨S32x300x512, .f32⟩ : BufTy).Contents (Elt Ideal)) (x1 : (⟨S32x1024x512, .f32⟩ : BufTy).Contents (Elt Ideal))
    (x2 : (⟨S512x512x512, .f32⟩ : BufTy).Contents (Elt Ideal)) (x3 x4 x5 : (⟨S512, .f32⟩ : BufTy).Contents (Elt Ideal)) :
    val_main_v32 (F := Ideal) x0 x1 x2 x3 x4 x5
      = Cert.Spec.O x0 (fun b k d => val_main_v3 (F := Ideal) x1 x2 (ix3 b k d)) x3 x4 x5 := by
  funext i
  obtain ⟨b, a, k, rfl⟩ : ∃ (b : Fin 32) (a : Fin 300) (k : Fin 512), i = ix3 b a k := ⟨i 0, i 1, i 2, eq_ix3 i⟩
  exact out_at x0 x1 x2 x3 x4 x5 b a k

/-- The reference's result is the specification of its arguments. -/
theorem ref_eq (x0 : (⟨S32x300x512, .f32⟩ : BufTy).Contents (Elt Ideal)) (x1 : (⟨S32x1024x512, .f32⟩ : BufTy).Contents (Elt Ideal))
    (x2 : (⟨S512x512x512, .f32⟩ : BufTy).Contents (Elt Ideal)) (x3 x4 x5 : (⟨S512, .f32⟩ : BufTy).Contents (Elt Ideal)) :
    val_main_v32 (F := Ideal) x0 x1 x2 x3 x4 x5
      = Cert.Spec.G x0 (Cert.Spec.bmeanV reducesTo_S32x1024x512_S32x512_d1 h_S_ bcast_S_S32x512 x1) x2 x3 x4 x5 := by
  rw [out_eq, ← bmean_eq]
  unfold Cert.Spec.G
  exact congrArg (fun t => Cert.Spec.O x0 t x3 x4 x5) (funext fun b => funext fun k => funext fun d => tval_eq x1 x2 b k d)

end Cert.ReferenceIdeal.RefValue

end
-- ==== Proof.lean ====
/-
  The certificate's claims, assembled.

  Both idealized programs compute, on the extended reals, the layer-normalised rows of
    x[b,a,k] = (Σ_d A[b,a,d] · t[b,k,d] + bias[k]) + A[b,a,k],   t[b,k,d] = Σ_e bm[b,e] · W[k,d,e],
  bm the mean of B over its middle axis (Proof/Spec.lean). The kernel program computes t in 64 column blocks of the
  flattened [32, 512·512] contraction and the normalisation one batch at a time (Proof/Region0.lean,
  Proof/Region1.lean, joined through the two re-layings in Proof/KernelValue.lean); the reference computes the
  same sums with whole-array contractions (Proof/RefValue.lean). No law beyond re-indexing the sums and 0 + s = s
  joins the two sides, so the precondition is never opened. The three frames are the generated ones (the
  reference's is its run with the result dropped); nothing was rewritten by the idealization, so the fourth
  claim is trivial.
-/
import proofs.«158117_j36129264894658_1_alg».proof.Defs
import proofs.«158117_j36129264894658_1_alg».proof.Proof.Gen.Kernel
import proofs.«158117_j36129264894658_1_alg».proof.Proof.Gen.Kernel.Frame
import proofs.«158117_j36129264894658_1_alg».proof.Proof.Gen.KernelIdeal
import proofs.«158117_j36129264894658_1_alg».proof.Proof.Gen.KernelIdeal.Frame
import proofs.«158117_j36129264894658_1_alg».proof.Proof.Gen.ReferenceIdeal
import proofs.«158117_j36129264894658_1_alg».proof.Proof.Gen.Pre_finite_inputs
import proofs.«158117_j36129264894658_1_alg».proof.Proof.Gen.ReferenceIdeal.Run
import proofs.«158117_j36129264894658_1_alg».proof.Proof.Gen.ReferenceIdeal.Read
import proofs.«158117_j36129264894658_1_alg».proof.Proof.KernelRun
import proofs.«158117_j36129264894658_1_alg».proof.Proof.KernelValue
import proofs.«158117_j36129264894658_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the six arguments both programs end with the result at the specification of those
    arguments: the kernel program by its run with the result kept and the value of the last boundary, the reference
    by its run and the reading of its operations at an index. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0))
      (Cert.Spec.bmeanV Cert.KernelIdeal.Facts₀.reducesTo_S32x1024x512_S32x512_d1 Cert.KernelIdeal.Facts₀.h_S_ Cert.KernelIdeal.Facts₀.bcast_S_S32x512 (m ((c.tc : Thread Cert.KernelIdeal.nD Cert.KernelIdeal.τ).loc Cert.KernelIdeal.main_arg1)))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.KValue.result_eq m ρ c), (h c).2⟩)
      (Cert.KernelIdeal.GenRun.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v32_eq, Cert.ReferenceIdeal.RefValue.ref_eq,
      (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
